-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S1x16384 : Shape := ⟨2, ![1, 16384]⟩
abbrev S1024x3 : Shape := ⟨2, ![1024, 3]⟩
abbrev S1x1024 : Shape := ⟨2, ![1, 1024]⟩
abbrev S1024 : Shape := ⟨1, ![1024]⟩
abbrev S1024x1 : Shape := ⟨2, ![1024, 1]⟩
abbrev S3x1024 : Shape := ⟨2, ![3, 1024]⟩
abbrev S1024x1024 : Shape := ⟨2, ![1024, 1024]⟩
abbrev S16384 : Shape := ⟨1, ![16384]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S1x16384, .f32⟩
  | .hbm, ⟨3, _⟩ => ⟨S16384, .f32⟩
  | .hbm, ⟨4, _⟩ => ⟨S1x16384, .f32⟩
  | .hbm, ⟨5, _⟩ => ⟨S16384, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1x1024, .f32⟩
  | .local _ .vmem, ⟨5, _⟩ => ⟨S1x1024, .f32⟩
  | .local _ .vmem, ⟨6, _⟩ => ⟨S1024x3, .f32⟩
  | .local _ .vmem, ⟨7, _⟩ => ⟨S1024x3, .f32⟩
  | .local _ .vmem, ⟨8, _⟩ => ⟨S1024x3, .f32⟩
  | .local _ .vmem, ⟨9, _⟩ => ⟨S1024x3, .f32⟩
  | .local _ .vmem, ⟨10, _⟩ => ⟨S1x1024, .f32⟩
  | .local _ .vmem, ⟨11, _⟩ => ⟨S1x1024, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x3_S1024x3_0_0 : ∀ a, (![0, 0] : Fin 2 → Nat) a + S1024x3.size a ≤ S1024x3.size a
  h_S1024x3 : 0 < S1024x3.numel
  bitsLt_bf16_f32 : FTy.bits .bf16 < FTy.bits .f32
  reduces_S1024x3_S1024 : S1024x3.Reduces [1] S1024
  shapeCasts_S1024_S1x1024 : S1024.ShapeCasts S1x1024
  shapeCasts_S1024_S1024x1 : S1024.ShapeCasts S1024x1
  transposes_S1024x3_p1_0_S3x1024 : S1024x3.Transposes [1, 0] S3x1024
  broadcasts_S1024x1_S1024x1024 : S1024x1.Broadcasts S1024x1024
  broadcasts_S1x1024_S1024x1024 : S1x1024.Broadcasts S1024x1024
  reduces_S1024x1024_S1024 : S1024x1024.Reduces [0] S1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x16384_S16384 : S1x16384.ShapeCasts S16384
  reducesTo_S16384_S_d0 : S16384.ReducesTo [0] S_
  h_S_ : 0 < S_.numel
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S16384x3.size a
  hwx1_0 : ∀ i : grid1.Coords, EltTy.bits .f32 = 32 ∨ (Rect.block (s := S16384x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S16384x3.size a
  hwx1_1 : ∀ i : grid1.Coords, EltTy.bits .f32 = 32 ∨ (Rect.block (s := S16384x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x16384.size a
  hwx1_2 : ∀ i : grid1.Coords, EltTy.bits .f32 = 32 ∨ (Rect.block (s := S1x16384) S1x1024.size (cc1_transform_2 i) (hinb1_2 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x3, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S3x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.Spec.lean ====
/-
  The mathematics of the Chamfer sum, free of any program.

  For two point clouds `A`, `B` (16384 rows of 3 coordinates, extended reals) the distance of row `c` of `A`
  to row `r` of `B` is taken through the expansion
      ‖a − b‖ = sqrt (max ((‖b‖² + ‖a‖²) − 2 · ⟨b, a⟩) 0),
  with the three literals (two, zero, plus infinity) kept as the words the programs print. `nearest A B c`
  is the least such distance over all rows of `B`, a fold of `min` from plus infinity; `total a b` is the
  sum of two such vectors, each summed from zero. The accumulation law: the least distance over the rows
  below `1024 · (j + 1)` is the `min` of the least below `1024 · j` and the least over band `j` alone — an
  identity of folds of `min` that needs no property of the starting value, and none of the inputs.
-/
import Idealize.ShloMosaic.PureOps.Ideal
import Idealize.ShloMosaic.Lib.ValueIdx
import Mathlib.Data.Finset.Fold

noncomputable section

open scoped BigOperators

namespace Cert.Chamfer

open Idealize.ShloMosaic Idealize.ShloMosaic.ValueIdx

/-- A cloud of 16384 points in three coordinates. -/
abbrev Pts : Shape := ⟨2, ![16384, 3]⟩

/-- The three literals, as the words both programs print. -/
abbrev INF : EReal := Ideal.ofBits .f32 0x7F800000#32
abbrev TWO : EReal := Ideal.ofBits .f32 0x40000000#32
abbrev ZERO : EReal := Ideal.ofBits .f32 0x00000000#32

/-- The squared norm of row `n`. -/
def sq (P : Pts.Idx → EReal) (n : Fin 16384) : EReal := ∑ k : Fin 3, P (ix2 n k) * P (ix2 n k)

/-- The inner product of row `n` of `P` with row `m` of `Q`. -/
def dot (P Q : Pts.Idx → EReal) (n m : Fin 16384) : EReal := ∑ k : Fin 3, P (ix2 n k) * Q (ix2 m k)

theorem dot_comm (P Q : Pts.Idx → EReal) (n m : Fin 16384) : dot P Q n m = dot Q P m n :=
  Finset.sum_congr rfl fun _ _ => mul_comm _ _

/-- The distance of row `c` of `A` to row `r` of `B`, through the expansion. -/
def edist (A B : Pts.Idx → EReal) (c r : Fin 16384) : EReal :=
  Ideal.sqrt (max ((sq B r + sq A c) - TWO * dot B A r c) ZERO)

/-- The expansion is symmetric in the two rows. -/
theorem edist_symm (A B : Pts.Idx → EReal) (c r : Fin 16384) : edist A B c r = edist B A r c := by
  unfold edist; rw [add_comm, dot_comm]

/-- The least distance of row `c` of `A` to the rows of `B`. -/
def nearest (A B : Pts.Idx → EReal) (c : Fin 16384) : EReal :=
  (Finset.univ : Finset (Fin 16384)).fold min INF (fun r => edist A B c r)

/-- The same over the rows of `B` below `n` only. -/
def nearestBelow (A B : Pts.Idx → EReal) (n : ℕ) (c : Fin 16384) : EReal :=
  (Finset.univ.filter fun r : Fin 16384 => r.val < n).fold min INF (fun r => edist A B c r)

/-- Row `r` of band `j`: sixteen bands of 1024 rows. -/
abbrev bandRow (j : Fin 16) (r : Fin 1024) : Fin 16384 := ⟨1024 * j.val + r.val, by omega⟩

/-- The least distance over band `j` alone. -/
def nearestBand (A B : Pts.Idx → EReal) (j : Fin 16) (c : Fin 16384) : EReal :=
  (Finset.univ : Finset (Fin 1024)).fold min INF (fun r => edist A B c (bandRow j r))

theorem nearestBelow_zero (A B : Pts.Idx → EReal) (c : Fin 16384) : nearestBelow A B 0 c = INF := by
  unfold nearestBelow
  rw [Finset.filter_false_of_mem (fun r _ => Nat.not_lt_zero _), Finset.fold_empty]

theorem nearestBelow_all (A B : Pts.Idx → EReal) (c : Fin 16384) : nearestBelow A B 16384 c = nearest A B c := by
  unfold nearestBelow nearest
  rw [Finset.filter_true_of_mem (fun r _ => r.isLt)]

/-- THE ACCUMULATION: one more band. -/
theorem nearestBelow_band (A B : Pts.Idx → EReal) (j : Fin 16) (c : Fin 16384) :
    min (nearestBelow A B (1024 * j.val) c) (nearestBand A B j c) = nearestBelow A B (1024 * (j.val + 1)) c := by
  refine eq_of_forall_le_iff fun x => ?_
  unfold nearestBelow nearestBand
  rw [le_min_iff, Finset.le_fold_min, Finset.le_fold_min, Finset.le_fold_min]
  constructor
  · rintro ⟨⟨hx, h1⟩, -, h2⟩
    refine ⟨hx, fun r hr => ?_⟩
    have hr' := (Finset.mem_filter.mp hr).2
    by_cases hlt : r.val < 1024 * j.val
    · exact h1 r (Finset.mem_filter.mpr ⟨Finset.mem_univ _, hlt⟩)
    · have := h2 ⟨r.val - 1024 * j.val, by omega⟩ (Finset.mem_univ _)
      have e : bandRow j ⟨r.val - 1024 * j.val, by omega⟩ = r := Fin.ext (by simp only [bandRow]; omega)
      rwa [e] at this
  · rintro ⟨hx, h⟩
    refine ⟨⟨hx, fun r hr => h r ?_⟩, hx, fun r _ => h _ ?_⟩
    · have := (Finset.mem_filter.mp hr).2
      exact Finset.mem_filter.mpr ⟨Finset.mem_univ _, by omega⟩
    · exact Finset.mem_filter.mpr ⟨Finset.mem_univ _, by have := r.isLt; simp only [bandRow]; omega⟩

/-- The first band is folded into plus infinity itself. -/
theorem nearestBelow_first (A B : Pts.Idx → EReal) (c : Fin 16384) :
    min INF (nearestBand A B 0 c) = nearestBelow A B 1024 c := by
  have := nearestBelow_band A B 0 c
  rwa [show (1024 * (0 : Fin 16).val) = 0 from rfl, nearestBelow_zero] at this

/-! ## One grid point: a block of 1024 anchor rows against a block of 1024 other rows -/

/-- A block of 1024 rows. -/
abbrev Blk : Shape := ⟨2, ![1024, 3]⟩

/-- The squared norm of row `r` of a block. -/
def bsq (x : Blk.Idx → EReal) (r : Fin 1024) : EReal := ∑ k : Fin 3, x (ix2 r k) * x (ix2 r k)

/-- The inner product of row `r` of one block with row `q` of another. -/
def bdot (x y : Blk.Idx → EReal) (r q : Fin 1024) : EReal := ∑ k : Fin 3, x (ix2 r k) * y (ix2 q k)

/-- The distance of row `q` of the anchor block `a` to row `r` of the other block `b`. -/
def bdist (a b : Blk.Idx → EReal) (q r : Fin 1024) : EReal :=
  Ideal.sqrt (max ((bsq b r + bsq a q) - TWO * bdot b a r q) ZERO)

/-- The least distance of row `q` of the anchor block to the rows of the other block. -/
def localMin (a b : Blk.Idx → EReal) (q : Fin 1024) : EReal :=
  (Finset.univ : Finset (Fin 1024)).fold min INF (fun r => bdist a b q r)

/-- When `a` is band `i` of `A` and `b` is band `j` of `B`, the block's least distance at row `q` is the
    least distance of row `1024 · i + q` of `A` over band `j` of `B`. -/
theorem localMin_eq_band (A B : Pts.Idx → EReal) (a b : Blk.Idx → EReal) (i j : Fin 16)
    (ha : ∀ r k, a (ix2 r k) = A (ix2 (bandRow i r) k)) (hb : ∀ r k, b (ix2 r k) = B (ix2 (bandRow j r) k))
    (q : Fin 1024) : localMin a b q = nearestBand A B j (bandRow i q) := by
  unfold localMin nearestBand
  refine congrArg (fun f => (Finset.univ : Finset (Fin 1024)).fold min INF f) (funext fun r => ?_)
  unfold bdist edist bsq sq bdot dot
  simp only [ha, hb]

/-- The Chamfer sum of two vectors of least distances, each summed from the printed zero. -/
def total (a b : Fin 16384 → EReal) : EReal := (ZERO + ∑ n, a n) + (ZERO + ∑ n, b n)

end Cert.Chamfer

end
-- ==== Proof.Pieces.lean ====
/-
  What one grid point leaves in the result's staging row, as a value.

  The body of either region loads its anchor block and its other block, and stores the staging row once or twice:
  at a point whose second grid coordinate is zero it first stores plus infinity everywhere and reads that back, then
  (at every point) stores the `min` of what it read and the block's least distances. So a first point leaves the
  body's arithmetic applied to (anchor block, other block, plus infinity), and any other point leaves it applied to
  (anchor block, other block, what the point before left). The two regions run the same arithmetic; both are stated
  over the first region's name for it.
-/
import proofs.«154543_j30442728194567_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Chamfer.Pieces

open Cert.KernelIdeal Cert.KernelIdeal.Gen

variable {F : FTy → Type} [FloatOps F]

theorem hz : (![0, 0] : Fin 2 → Nat) = fun _ => 0 := funext fun a => by fin_cases a <;> rfl

theorem out0_B (c : Dev nD) (i : grid0.Coords) (a2 : Memref sig .tc .vmem S1024x3 .f32) (h2 : a2.IsWhole)
    (a3 : Memref sig .tc .vmem S1024x3 .f32) (h3 : a3.IsWhole) (a4 : Memref sig .tc .vmem S1x1024 .f32) (h4 : a4.IsWhole)
    (hc : ¬cond0_0 i) (x0 x1 : Vec F S1024x3 .f32) (xo : Vec F S1x1024 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S1024x3) hz,
    View.ld_unit_zero (S := S1x1024) hz]

theorem out0_A (c : Dev nD) (i : grid0.Coords) (a2 : Memref sig .tc .vmem S1024x3 .f32) (h2 : a2.IsWhole)
    (a3 : Memref sig .tc .vmem S1024x3 .f32) (h3 : a3.IsWhole) (a4 : Memref sig .tc .vmem S1x1024 .f32) (h4 : a4.IsWhole)
    (hc : cond0_0 i) (x0 x1 : Vec F S1024x3 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1024) hz, View.readCov_unit_zero (S := S1x1024) _ hz]
  simp only [View.readAt_eq_ld, h2.read_unread, h3.read_unread, View.ld_unit_zero (S := S1024x3) hz]

theorem out1_B (c : Dev nD) (i : grid1.Coords) (a2 : Memref sig .tc .vmem S1024x3 .f32) (h2 : a2.IsWhole)
    (a3 : Memref sig .tc .vmem S1024x3 .f32) (h3 : a3.IsWhole) (a4 : Memref sig .tc .vmem S1x1024 .f32) (h4 : a4.IsWhole)
    (hc : ¬cond1_0 i) (x0 x1 : Vec F S1024x3 .f32) (xo : Vec F S1x1024 .f32) :
    out1_B_2 c i a2 h2 a3 h3 a4 h4 hc x0 x1 xo = k0_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz]
  simp only [View.readAt_eq_ld, h2.read_unread, h3.read_unread, h4.read_unread, View.ld_unit_zero (S := S1024x3) hz,
    View.ld_unit_zero (S := S1x1024) hz]
  rfl

theorem out1_A (c : Dev nD) (i : grid1.Coords) (a2 : Memref sig .tc .vmem S1024x3 .f32) (h2 : a2.IsWhole)
    (a3 : Memref sig .tc .vmem S1024x3 .f32) (h3 : a3.IsWhole) (a4 : Memref sig .tc .vmem S1x1024 .f32) (h4 : a4.IsWhole)
    (hc : cond1_0 i) (x0 x1 : Vec F S1024x3 .f32) :
    out1_A_2 c i a2 h2 a3 h3 a4 h4 hc x0 x1 = k0_pay2 x0 x1 (k0_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1x1024) hz, View.readCov_unit_zero (S := S1x1024) _ hz]
  simp only [View.readAt_eq_ld, h2.read_unread, h3.read_unread, View.ld_unit_zero (S := S1024x3) hz]
  rfl

end Cert.Chamfer.Pieces

end
-- ==== Proof.Payload.lean ====
/-
  One grid point's arithmetic, read at an index.

  At one grid point the body holds a block of 1024 anchor rows, a block of 1024 other rows, and the
  running minimum of the anchor rows' distances. It forms the row sums of squares of both blocks, the
  1024 × 1024 table of inner products of other rows with anchor rows (a product of the other block with
  the anchor block transposed, summed into zero), from them the table
      sqrt (max ((‖b_r‖² + ‖a_q‖²) − 2 · ⟨b_r, a_q⟩) 0)
  at (r, q), takes the least entry of each column q over the rows r, starting from plus infinity, and
  stores the lesser of that and the running minimum. Read at column q this is
      min (running minimum at q) (localMin a b q).
  The first of sixteen grid points of a row of the grid stores plus infinity everywhere instead.
  The second region's body is the same text.
-/
import proofs.«154543_j30442728194567_1_alg».proof.Proof.Gen.KernelIdeal.Skeleton
import proofs.«154543_j30442728194567_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.Chamfer.Body

open Idealize.ShloMosaic Idealize.ShloMosaic.ValueIdx Cert.KernelIdeal Cert.KernelIdeal.Gen

/-! ## Layout: a vector as a column, and a column spread over many columns -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The square root, read at an index -/

/-- A square root at an index is the square root of the element. -/
theorem sqrt_apply {s : Shape} {φ : FTy} (a : FVec Ideal s φ) (i : s.Idx) : sqrt a i = Ideal.sqrt (a i) := rfl

/-! ## A least element over one axis -/

/-- A minimum over ONE axis, read at a reduced index: the fold of `min` from the starting word's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The body's three reductions, at literal shapes -/

/-- The sum of squares of row `r` of a block. -/
theorem rowSq_apply (x : Vec Ideal S1024x3 .f32) (r : Fin 1024) :
    multiReduction (F := Ideal) .add [1] S1024 (mulf x x) 0x00000000#32 reduces_S1024x3_S1024 (.inl rfl) rfl (ix1 r)
      = bsq x r := by
  refine (Ideal.multiReduction_add_single (mulf x x) 0x00000000#32 reduces_S1024x3_S1024 (.inl rfl) rfl (ix1 r)).trans ?_
  unfold bsq
  refine Finset.sum_congr rfl fun (k : Fin 3) _ => ?_
  have e : reduces_S1024x3_S1024.lift (ix1 r) k = ix2 r k :=
    funext fun a => Fin.ext (by match a with | ⟨0, _⟩ => rfl | ⟨1, _⟩ => rfl)
  exact congrArg (fun i => x i * x i) e

/-- The least entry of column `q` of a 1024 × 1024 table, from plus infinity. -/
theorem colMin_apply (y : FVec Ideal S1024x1024 .f32) (q : Fin 1024) :
    multiReduction (F := Ideal) .minimumf [0] S1024 y 0x7F800000#32 reduces_S1024x1024_S1024 (.inl rfl) rfl (ix1 q)
      = (Finset.univ : Finset (Fin 1024)).fold min INF (fun r => y (ix2 r q)) := by
  refine (multiReduction_minimumf_single y 0x7F800000#32 reduces_S1024x1024_S1024 (.inl rfl) rfl (ix1 q)).trans ?_
  refine congrArg (fun f => (Finset.univ : Finset (Fin 1024)).fold min INF f) (funext fun (r : Fin 1024) => ?_)
  have e : reduces_S1024x1024_S1024.lift (ix1 q) r = ix2 r q :=
    funext fun a => Fin.ext (by match a with | ⟨0, _⟩ => rfl | ⟨1, _⟩ => rfl)
  exact congrArg y e

/-! ## The table of inner products -/

theorem lhs_mm_0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
theorem lhs_mm_1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
theorem rhs_mm_0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
theorem rhs_mm_1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- The product of a 1024 × 3 block with a 3 × 1024 block, summed into zero: at `(r, c)` the sum over the
    three coordinates of the left block's row `r` times the right block's column `c`. -/
theorem mm_apply (l : FVec Ideal S1024x3 .bf16) (t : FVec Ideal S3x1024 .bf16) (r c : Fin 1024) :
    matmul dot_S1024x3_S3x1024_S1024x1024_1_0_0_1_n_n none l t (constant (F := Ideal) S1024x1024 .f32 0x00000000#32) (ix2 r c)
      = ∑ k : Fin 3, l (ix2 r k) * t (ix2 k c) := by
  simp only [matmul]
  rw [Ideal.matmul_constant_zero_apply, ← Equiv.sum_comp (ValueIdx.contrEquiv1 dot_S1024x3_S3x1024_S1024x1024_1_0_0_1_n_n 3 rfl rfl).symm]
  refine Finset.sum_congr rfl fun k _ => ?_
  have hk := ValueIdx.contrEquiv1_symm_val dot_S1024x3_S3x1024_S1024x1024_1_0_0_1_n_n 3 rfl rfl k
  have el : dot_S1024x3_S3x1024_S1024x1024_1_0_0_1_n_n.lhsIdx (ix2 r c) ((ValueIdx.contrEquiv1 dot_S1024x3_S3x1024_S1024x1024_1_0_0_1_n_n 3 rfl rfl).symm k) = ix2 r k := funext fun a => Fin.ext (by
    match a with
    | ⟨0, _⟩ => exact lhs_mm_0 _ _
    | ⟨1, _⟩ => exact (lhs_mm_1 _ _).trans hk)
  have er : dot_S1024x3_S3x1024_S1024x1024_1_0_0_1_n_n.rhsIdx (ix2 r c) ((ValueIdx.contrEquiv1 dot_S1024x3_S3x1024_S1024x1024_1_0_0_1_n_n 3 rfl rfl).symm k) = ix2 k c := funext fun a => Fin.ext (by
    match a with
    | ⟨0, _⟩ => exact (rhs_mm_0 _ _).trans hk
    | ⟨1, _⟩ => exact rhs_mm_1 _ _)
  rw [el, er]

/-- With the right block the transpose of a 1024 × 3 block: the inner product of row `r` of the left block
    with row `c` of the transposed one. -/
theorem inner_apply (x y : Vec Ideal S1024x3 .f32) (r c : Fin 1024) :
    matmul dot_S1024x3_S3x1024_S1024x1024_1_0_0_1_n_n none (truncf .bf16 x bitsLt_bf16_f32)
        (transpose S3x1024 [1, 0] (truncf .bf16 y bitsLt_bf16_f32) transposes_S1024x3_p1_0_S3x1024)
        (constant (F := Ideal) S1024x1024 .f32 0x00000000#32) (ix2 r c)
      = bdot x y r c := by
  refine (mm_apply _ _ r c).trans ?_
  unfold bdot
  refine Finset.sum_congr rfl fun (k : Fin 3) _ => ?_
  exact congrArg (fun z => x (ix2 r k) * z) (transpose_ix2_apply _ transposes_S1024x3_p1_0_S3x1024 k c)

/-! ## The payloads at an index -/

/-- The first of sixteen grid points stores plus infinity. -/
theorem pay1_apply (y : Cert.KernelIdeal.S1x1024.Idx) : k0_pay1 (F := Ideal) y = Cert.Chamfer.INF := rfl

/-- What every other grid point stores, read at column `q`: the lesser of the running minimum there and the
    least distance of anchor row `q` to the other block's rows. -/
theorem pay2_apply (x0 x1 : Vec Ideal Cert.KernelIdeal.S1024x3 .f32) (xo : Vec Ideal Cert.KernelIdeal.S1x1024 .f32) (q : Fin 1024) :
    k0_pay2 (F := Ideal) x0 x1 xo (ix2 0 q) = min (xo (ix2 0 q)) (Cert.Chamfer.localMin x0 x1 q) := by
  unfold k0_pay2
  refine (minimumf_apply _ _ _).trans (congrArg₂ min ?_ ?_)
  · exact congrFun (shapeCast_self xo _) _
  · refine (shapeCast_a_1a_apply _ _ 0 q).trans ?_
    refine (colMin_apply _ q).trans ?_
    unfold localMin
    refine congrArg (fun f => (Finset.univ : Finset (Fin 1024)).fold min INF f) (funext fun (r : Fin 1024) => ?_)
    unfold bdist
    refine (sqrt_apply _ _).trans (congrArg Ideal.sqrt ?_)
    refine (maximumf_apply _ _ _).trans (congrArg₂ max ?_ rfl)
    refine (subf_apply _ _ _).trans (congrArg₂ (· - ·) ?_ ?_)
    · refine (addf_apply _ _ _).trans (congrArg₂ (· + ·) ?_ ?_)
      · refine (broadcastTo_a1_ab_apply _ _ r q).trans ?_
        refine (shapeCast_a_a1_apply _ _ r 0).trans ?_
        exact rowSq_apply x1 r
      · refine (broadcastTo_1b_ab_apply _ _ r q).trans ?_
        refine (shapeCast_a_1a_apply _ _ 0 q).trans ?_
        exact rowSq_apply x0 q
    · refine (mulf_apply _ _ _).trans (congrArg₂ (· * ·) rfl ?_)
      exact inner_apply x1 x0 r q

/-! ## The second region's body is the first's -/

theorem k1_pay1_eq : @k1_pay1 = @k0_pay1 := rfl

theorem k1_pay2_eq : @k1_pay2 = @k0_pay2 := rfl

/-- The same two equations with the arguments applied. -/
theorem k1_pay1_eq' {F : FTy → Type} [FloatOps F] : k1_pay1 (F := F) = k0_pay1 := rfl

theorem k1_pay2_eq' {F : FTy → Type} [FloatOps F] (v0 v1 : Vec F S1024x3 .f32) (v26 : Vec F S1x1024 .f32) :
    k1_pay2 v0 v1 v26 = k0_pay2 v0 v1 v26 := rfl

end Cert.Chamfer.Body

end
-- ==== Proof.Region0.lean ====
/-
  The first region's result row, as one function of the two clouds.

  The region runs a 16 × 16 grid over (anchor band, other band), the other band fastest. At point `t` the body
  sees band `t / 16` of the anchor cloud and band `t % 16` of the other cloud, and folds that band's least
  distances into the staging row by `min`; the row starts from plus infinity when `t % 16 = 0` and is written
  back to columns `1024 · (t / 16) …` of the result when `t % 16 = 15`. By induction on the point the staging
  row after point `t` holds, at column `q`, the least distance of anchor row `1024 · (t / 16) + q` over the other
  rows below `1024 · (t % 16 + 1)` (Spec.lean's accumulation law, one band at a time); at a writing point that is
  every other row, and the sixteen writing points' blocks tile the result row. So the result row ends holding, at
  column `n`, the least distance of anchor row `n` to the other cloud.
-/
import proofs.«154543_j30442728194567_1_alg».proof.Proof.Gen.KernelIdeal.Frame
import proofs.«154543_j30442728194567_1_alg».proof.Proof.Spec
import proofs.«154543_j30442728194567_1_alg».proof.Proof.Pieces
import proofs.«154543_j30442728194567_1_alg».proof.Proof.Payload
import Idealize.ShloMosaic.Lib.Pipeline.Value
import Idealize.ShloMosaic.Lib.ValueIdx

-- a block's index type is its window's, a structure over the grid point: unifying it with the literal shape's
-- walks the window's definition
set_option maxRecDepth 16384

noncomputable section

open Idealize.ShloMosaic Idealize.ShloMosaic.TcCoe Idealize.SL.Sem
open Idealize.ShloMosaic.Pipeline (Dat)

/-! ## Region 0: the anchor is `main_arg0`, the other cloud `main_arg1`, the result row `main_v0` -/

namespace Cert.Chamfer.Reg0

open Cert.KernelIdeal Cert.KernelIdeal.Gen Idealize.ShloMosaic.ValueIdx Cert.Chamfer

variable (V : (c : Dev nD) → (b : Ref sig .tc) → Buf (Elt Ideal) ((c : Thread nD τ).loc b))

/-- The two clouds as the region finds them. -/
abbrev anchor (c : Dev nD) : Pts.Idx → EReal := V c main_arg0
abbrev other (c : Dev nD) : Pts.Idx → EReal := V c main_arg1

/-- The two blocks a grid point is called with, at their literal type. -/
abbrev ablk (c : Dev nD) (t : Fin cfg0.N) : Vec Ideal S1024x3 .f32 := iblk0 V c 0 t
abbrev bblk (c : Dev nD) (t : Fin cfg0.N) : Vec Ideal S1024x3 .f32 := iblk0 V c 1 t

/-- The grid is 16 × 16, the second coordinate fastest: point `t` pairs anchor band `t / 16` with other band
    `t % 16`, and writes result columns `1024 · (t / 16) …`. Decided over the grid. -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val / 16 :=
  (by decide +kernel : ∀ t : Fin grid0.N, _)

theorem N_eq : cfg0.N = 256 := N_0

/-- The anchor band and the other band of a point. -/
abbrev aband (t : Fin cfg0.N) : Fin 16 := ⟨t.val / 16, by have := lt_of_lt_of_eq t.isLt N_eq; omega⟩
abbrev oband (t : Fin cfg0.N) : Fin 16 := ⟨t.val % 16, by omega⟩

/-- The anchor block at point `t` is band `t / 16` of the anchor cloud. -/
theorem ablk_apply (c : Dev nD) (t : Fin cfg0.N) (r : Fin 1024) (k : Fin 3) :
    ablk V c t (ix2 r k) = anchor V c (ix2 (bandRow (aband t) r) k) := by
  obtain ⟨e0, e1, -, -, -, -⟩ := idx_facts t
  unfold ablk iblk0
  rw [View.read_apply]
  show V c main_arg0 _ = V c main_arg0 _
  congr 1
  funext a; apply Fin.ext
  match a with
  | ⟨0, _⟩ => show win0_0.index t (0 : Fin 2) * 1024 + 1 * r.val = 1024 * (t.val / 16) + r.val; rw [e0]; omega
  | ⟨1, _⟩ => show win0_0.index t (1 : Fin 2) * 3 + 1 * k.val = k.val; rw [e1]; omega

/-- The other block at point `t` is band `t % 16` of the other cloud. -/
theorem bblk_apply (c : Dev nD) (t : Fin cfg0.N) (r : Fin 1024) (k : Fin 3) :
    bblk V c t (ix2 r k) = other V c (ix2 (bandRow (oband t) r) k) := by
  obtain ⟨-, -, e2, e3, -, -⟩ := idx_facts t
  unfold bblk iblk0
  rw [View.read_apply]
  show V c main_arg1 _ = V c main_arg1 _
  congr 1
  funext a; apply Fin.ext
  match a with
  | ⟨0, _⟩ => show win0_1.index t (0 : Fin 2) * 1024 + 1 * r.val = 1024 * (t.val % 16) + r.val; rw [e2]; omega
  | ⟨1, _⟩ => show win0_1.index t (1 : Fin 2) * 3 + 1 * k.val = k.val; rw [e3]; omega

/-- So the block's least distance at row `q` is the least distance of anchor row `1024 · (t / 16) + q` over
    other band `t % 16`. -/
theorem localMin_blk (c : Dev nD) (t : Fin cfg0.N) (q : Fin 1024) :
    localMin (ablk V c t) (bblk V c t) q = nearestBand (anchor V c) (other V c) (oband t) (bandRow (aband t) q) :=
  localMin_eq_band _ _ _ _ _ _ (ablk_apply V c t) (bblk_apply V c t) q

/-- THE ACCUMULATION, in closed form: after point `n` the result's staging row holds, at column `q`, the least
    distance of anchor row `1024 · (n / 16) + q` over the other rows below `1024 · (n % 16 + 1)`. By induction on
    the point: a point with `n % 16 = 0` starts from plus infinity, any other folds one more band into what the point
    before left. -/
theorem outsAt_eq (c : Dev nD) : ∀ (n : ℕ) (h : n < cfg0.N) (q : Fin 1024),
    outsAt0 V c n h (ix2 (0 : Fin 1) q)
      = nearestBelow (anchor V c) (other V c) (1024 * (n % 16 + 1)) (bandRow (aband ⟨n, h⟩) q)
  | 0, h, q => by
    rw [outsAt0_A V c ⟨0, h⟩ rfl, Pieces.out0_A]
    refine (Body.pay2_apply (ablk V c ⟨0, h⟩) (bblk V c ⟨0, h⟩) _ q).trans ?_
    rw [Body.pay1_apply, localMin_blk]
    exact nearestBelow_first _ _ _
  | n + 1, h, q => by
    have hN : n + 1 < 256 := lt_of_lt_of_eq h N_eq
    by_cases h0 : (n + 1) % 16 = 0
    · rw [outsAt0_A V c ⟨n + 1, h⟩ h0, Pieces.out0_A]
      refine (Body.pay2_apply (ablk V c ⟨n + 1, h⟩) (bblk V c ⟨n + 1, h⟩) _ q).trans ?_
      rw [Body.pay1_apply, localMin_blk]
      have e : oband (⟨n + 1, h⟩ : Fin cfg0.N) = 0 := Fin.ext h0
      rw [e, h0]
      exact nearestBelow_first _ _ _
    · rw [outsAt0_B V c ⟨n + 1, h⟩ h0, Pieces.out0_B]
      refine (Body.pay2_apply (ablk V c ⟨n + 1, h⟩) (bblk V c ⟨n + 1, h⟩) _ q).trans ?_
      rw [localMin_blk]
      show min (outsAt0 V c n _ (ix2 (0 : Fin 1) q)) _ = _
      rw [outsAt_eq c n (Nat.lt_of_succ_lt h) q]
      have ea : aband (⟨n, Nat.lt_of_succ_lt h⟩ : Fin cfg0.N) = aband (⟨n + 1, h⟩ : Fin cfg0.N) :=
        Fin.ext (by show n / 16 = (n + 1) / 16; omega)
      have eo : 1024 * (n % 16 + 1) = 1024 * (oband (⟨n + 1, h⟩ : Fin cfg0.N)).val := by
        show 1024 * (n % 16 + 1) = 1024 * ((n + 1) % 16); omega
      rw [ea, eo]
      exact nearestBelow_band _ _ _ _

/-- The column of an index of the result row. -/
abbrev colOf (i : (⟨2, ![1, 16384]⟩ : Shape).Idx) : Fin 16384 := ⟨(i 1).val, idx2_lt1 i⟩

/-- What the result row ends holding: at column `n` the least distance of anchor row `n` to the other cloud. -/
abbrev G (c : Dev nD) : (⟨2, ![1, 16384]⟩ : Shape).Idx → EReal := fun i => nearest (anchor V c) (other V c) (colOf i)

-- a staging row's index type is its window's: reading it at the row's literal shape unfolds the window
set_option maxRecDepth 100000 in
/-- A point that writes back (`t % 16 = 15`: the sixteenth band folded in) writes block `t / 16` of `G`. -/
theorem flushed_eq (c : Dev nD) (t : Fin cfg0.N) (hf : (cfg0.win 2).flush t = true) :
    (dat0 V c).flushed 2 t = ((cfg0.win 2).blk t).view.read (Elt Ideal) (G V c) := by
  have h15 : t.val % 16 = 15 := (flush0_2 t).mp hf
  obtain ⟨-, -, -, -, e4, e5⟩ := idx_facts t
  show (cfg0.win 2).cut (grid0.coords t) ((dat0 V c).after 2 t) = _
  rw [after0_2]
  funext j
  have key : ∀ y : S1x1024.Idx, outsAt0 V c t.val t.isLt y
      = nearest (anchor V c) (other V c) (bandRow (aband t) ⟨(y 1).val, idx2_lt1 y⟩) := fun y => by
    have hy : y = ix2 (0 : Fin 1) ⟨(y 1).val, idx2_lt1 y⟩ := by
      funext a
      match a with
      | ⟨0, _⟩ => exact Fin.ext (by show (y 0).val = 0; have := idx2_lt0 y; omega)
      | ⟨1, _⟩ => rfl
    rw [hy, outsAt_eq V c t.val t.isLt, h15]
    exact nearestBelow_all _ _ _
  show outsAt0 V c t.val t.isLt ((cfg0.win 2).xinj (grid0.coords t) j) = G V c (((cfg0.win 2).blk t).view.emb j)
  refine (key _).trans ?_
  show nearest _ _ _ = nearest _ _ (colOf (((cfg0.win 2).blk t).view.emb j))
  congr 1
  apply Fin.ext
  show 1024 * (t.val / 16) + (j 1).val = win0_2.index t (1 : Fin 2) * 1024 + 1 * (j 1).val
  rw [e5]; omega

/-- An index of the result row is in point `t`'s block iff each coordinate is in the block's range on its axis. -/
theorem mem_blk (t : Fin cfg0.N) (i : S1x16384.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v0).slice (win0_2.rect t)).set ↔ _
  rw [View.set_slice_whole, Rect.mem_set_unit]
  exact Iff.rfl

/-- THE RESULT ROW after the region: the sixteen writing points' blocks tile it. -/
theorem final (c : Dev nD) : (dat0 V c).arrAt 2 cfg0.N = G V c :=
  (dat0 V c).arrAt_eq_of_cover 2 (G V c) (flushed_eq V c) fun i => by
    have hi0 : (i 0).val < 1 := idx2_lt0 i
    have hi1 : (i 1).val < 16384 := idx2_lt1 i
    let t : Fin cfg0.N := ⟨16 * ((i 1).val / 1024) + 15, by rw [N_eq]; omega⟩
    obtain ⟨-, -, -, -, e4, e5⟩ := idx_facts t
    have ht : t.val = 16 * ((i 1).val / 1024) + 15 := rfl
    refine ⟨t, (flush0_2 t).mpr (by rw [ht]; omega), ?_⟩
    rw [mem_blk]
    intro a
    match a with
    | ⟨0, _⟩ => show win0_2.index t (0 : Fin 2) * 1 ≤ (i 0).val ∧ (i 0).val < win0_2.index t (0 : Fin 2) * 1 + 1; rw [e4]; omega
    | ⟨1, _⟩ => show win0_2.index t (1 : Fin 2) * 1024 ≤ (i 1).val ∧ (i 1).val < win0_2.index t (1 : Fin 2) * 1024 + 1024; rw [e5, ht]; omega

end Cert.Chamfer.Reg0

end
-- ==== Proof.Region1.lean ====
/-
  The second region's result row, as one function of the two clouds.

  The region runs a 16 × 16 grid over (anchor band, other band), the other band fastest. At point `t` the body
  sees band `t / 16` of the anchor cloud and band `t % 16` of the other cloud, and folds that band's least
  distances into the staging row by `min`; the row starts from plus infinity when `t % 16 = 0` and is written
  back to columns `1024 · (t / 16) …` of the result when `t % 16 = 15`. By induction on the point the staging
  row after point `t` holds, at column `q`, the least distance of anchor row `1024 · (t / 16) + q` over the other
  rows below `1024 · (t % 16 + 1)` (Spec.lean's accumulation law, one band at a time); at a writing point that is
  every other row, and the sixteen writing points' blocks tile the result row. So the result row ends holding, at
  column `n`, the least distance of anchor row `n` to the other cloud.
-/
import proofs.«154543_j30442728194567_1_alg».proof.Proof.Gen.KernelIdeal.Frame
import proofs.«154543_j30442728194567_1_alg».proof.Proof.Spec
import proofs.«154543_j30442728194567_1_alg».proof.Proof.Pieces
import proofs.«154543_j30442728194567_1_alg».proof.Proof.Payload
import Idealize.ShloMosaic.Lib.Pipeline.Value
import Idealize.ShloMosaic.Lib.ValueIdx

-- a block's index type is its window's, a structure over the grid point: unifying it with the literal shape's
-- walks the window's definition
set_option maxRecDepth 16384

noncomputable section

open Idealize.ShloMosaic Idealize.ShloMosaic.TcCoe Idealize.SL.Sem
open Idealize.ShloMosaic.Pipeline (Dat)

/-! ## Region 1: the anchor is `main_arg1`, the other cloud `main_arg0`, the result row `main_v2` -/

namespace Cert.Chamfer.Reg1

open Cert.KernelIdeal Cert.KernelIdeal.Gen Idealize.ShloMosaic.ValueIdx Cert.Chamfer

variable (V : (c : Dev nD) → (b : Ref sig .tc) → Buf (Elt Ideal) ((c : Thread nD τ).loc b))

/-- The two clouds as the region finds them. -/
abbrev anchor (c : Dev nD) : Pts.Idx → EReal := V c main_arg1
abbrev other (c : Dev nD) : Pts.Idx → EReal := V c main_arg0

/-- The two blocks a grid point is called with, at their literal type. -/
abbrev ablk (c : Dev nD) (t : Fin cfg1.N) : Vec Ideal S1024x3 .f32 := iblk1 V c 0 t
abbrev bblk (c : Dev nD) (t : Fin cfg1.N) : Vec Ideal S1024x3 .f32 := iblk1 V c 1 t

/-- The grid is 16 × 16, the second coordinate fastest: point `t` pairs anchor band `t / 16` with other band
    `t % 16`, and writes result columns `1024 · (t / 16) …`. Decided over the grid. -/
theorem idx_facts : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = 0 ∧ win1_2.index t (1 : Fin 2) = t.val / 16 :=
  (by decide +kernel : ∀ t : Fin grid1.N, _)

theorem N_eq : cfg1.N = 256 := N_1

/-- The anchor band and the other band of a point. -/
abbrev aband (t : Fin cfg1.N) : Fin 16 := ⟨t.val / 16, by have := lt_of_lt_of_eq t.isLt N_eq; omega⟩
abbrev oband (t : Fin cfg1.N) : Fin 16 := ⟨t.val % 16, by omega⟩

/-- The anchor block at point `t` is band `t / 16` of the anchor cloud. -/
theorem ablk_apply (c : Dev nD) (t : Fin cfg1.N) (r : Fin 1024) (k : Fin 3) :
    ablk V c t (ix2 r k) = anchor V c (ix2 (bandRow (aband t) r) k) := by
  obtain ⟨e0, e1, -, -, -, -⟩ := idx_facts t
  unfold ablk iblk1
  rw [View.read_apply]
  show V c main_arg1 _ = V c main_arg1 _
  congr 1
  funext a; apply Fin.ext
  match a with
  | ⟨0, _⟩ => show win1_0.index t (0 : Fin 2) * 1024 + 1 * r.val = 1024 * (t.val / 16) + r.val; rw [e0]; omega
  | ⟨1, _⟩ => show win1_0.index t (1 : Fin 2) * 3 + 1 * k.val = k.val; rw [e1]; omega

/-- The other block at point `t` is band `t % 16` of the other cloud. -/
theorem bblk_apply (c : Dev nD) (t : Fin cfg1.N) (r : Fin 1024) (k : Fin 3) :
    bblk V c t (ix2 r k) = other V c (ix2 (bandRow (oband t) r) k) := by
  obtain ⟨-, -, e2, e3, -, -⟩ := idx_facts t
  unfold bblk iblk1
  rw [View.read_apply]
  show V c main_arg0 _ = V c main_arg0 _
  congr 1
  funext a; apply Fin.ext
  match a with
  | ⟨0, _⟩ => show win1_1.index t (0 : Fin 2) * 1024 + 1 * r.val = 1024 * (t.val % 16) + r.val; rw [e2]; omega
  | ⟨1, _⟩ => show win1_1.index t (1 : Fin 2) * 3 + 1 * k.val = k.val; rw [e3]; omega

/-- So the block's least distance at row `q` is the least distance of anchor row `1024 · (t / 16) + q` over
    other band `t % 16`. -/
theorem localMin_blk (c : Dev nD) (t : Fin cfg1.N) (q : Fin 1024) :
    localMin (ablk V c t) (bblk V c t) q = nearestBand (anchor V c) (other V c) (oband t) (bandRow (aband t) q) :=
  localMin_eq_band _ _ _ _ _ _ (ablk_apply V c t) (bblk_apply V c t) q

/-- THE ACCUMULATION, in closed form: after point `n` the result's staging row holds, at column `q`, the least
    distance of anchor row `1024 · (n / 16) + q` over the other rows below `1024 · (n % 16 + 1)`. By induction on
    the point: a point with `n % 16 = 0` starts from plus infinity, any other folds one more band into what the point
    before left. -/
theorem outsAt_eq (c : Dev nD) : ∀ (n : ℕ) (h : n < cfg1.N) (q : Fin 1024),
    outsAt1 V c n h (ix2 (0 : Fin 1) q)
      = nearestBelow (anchor V c) (other V c) (1024 * (n % 16 + 1)) (bandRow (aband ⟨n, h⟩) q)
  | 0, h, q => by
    rw [outsAt1_A V c ⟨0, h⟩ rfl, Pieces.out1_A]
    refine (Body.pay2_apply (ablk V c ⟨0, h⟩) (bblk V c ⟨0, h⟩) _ q).trans ?_
    rw [Body.pay1_apply, localMin_blk]
    exact nearestBelow_first _ _ _
  | n + 1, h, q => by
    have hN : n + 1 < 256 := lt_of_lt_of_eq h N_eq
    by_cases h0 : (n + 1) % 16 = 0
    · rw [outsAt1_A V c ⟨n + 1, h⟩ h0, Pieces.out1_A]
      refine (Body.pay2_apply (ablk V c ⟨n + 1, h⟩) (bblk V c ⟨n + 1, h⟩) _ q).trans ?_
      rw [Body.pay1_apply, localMin_blk]
      have e : oband (⟨n + 1, h⟩ : Fin cfg1.N) = 0 := Fin.ext h0
      rw [e, h0]
      exact nearestBelow_first _ _ _
    · rw [outsAt1_B V c ⟨n + 1, h⟩ h0, Pieces.out1_B]
      refine (Body.pay2_apply (ablk V c ⟨n + 1, h⟩) (bblk V c ⟨n + 1, h⟩) _ q).trans ?_
      rw [localMin_blk]
      show min (outsAt1 V c n _ (ix2 (0 : Fin 1) q)) _ = _
      rw [outsAt_eq c n (Nat.lt_of_succ_lt h) q]
      have ea : aband (⟨n, Nat.lt_of_succ_lt h⟩ : Fin cfg1.N) = aband (⟨n + 1, h⟩ : Fin cfg1.N) :=
        Fin.ext (by show n / 16 = (n + 1) / 16; omega)
      have eo : 1024 * (n % 16 + 1) = 1024 * (oband (⟨n + 1, h⟩ : Fin cfg1.N)).val := by
        show 1024 * (n % 16 + 1) = 1024 * ((n + 1) % 16); omega
      rw [ea, eo]
      exact nearestBelow_band _ _ _ _

/-- The column of an index of the result row. -/
abbrev colOf (i : (⟨2, ![1, 16384]⟩ : Shape).Idx) : Fin 16384 := ⟨(i 1).val, idx2_lt1 i⟩

/-- What the result row ends holding: at column `n` the least distance of anchor row `n` to the other cloud. -/
abbrev G (c : Dev nD) : (⟨2, ![1, 16384]⟩ : Shape).Idx → EReal := fun i => nearest (anchor V c) (other V c) (colOf i)

-- a staging row's index type is its window's: reading it at the row's literal shape unfolds the window
set_option maxRecDepth 100000 in
/-- A point that writes back (`t % 16 = 15`: the sixteenth band folded in) writes block `t / 16` of `G`. -/
theorem flushed_eq (c : Dev nD) (t : Fin cfg1.N) (hf : (cfg1.win 2).flush t = true) :
    (dat1 V c).flushed 2 t = ((cfg1.win 2).blk t).view.read (Elt Ideal) (G V c) := by
  have h15 : t.val % 16 = 15 := (flush1_2 t).mp hf
  obtain ⟨-, -, -, -, e4, e5⟩ := idx_facts t
  show (cfg1.win 2).cut (grid1.coords t) ((dat1 V c).after 2 t) = _
  rw [after1_2]
  funext j
  have key : ∀ y : S1x1024.Idx, outsAt1 V c t.val t.isLt y
      = nearest (anchor V c) (other V c) (bandRow (aband t) ⟨(y 1).val, idx2_lt1 y⟩) := fun y => by
    have hy : y = ix2 (0 : Fin 1) ⟨(y 1).val, idx2_lt1 y⟩ := by
      funext a
      match a with
      | ⟨0, _⟩ => exact Fin.ext (by show (y 0).val = 0; have := idx2_lt0 y; omega)
      | ⟨1, _⟩ => rfl
    rw [hy, outsAt_eq V c t.val t.isLt, h15]
    exact nearestBelow_all _ _ _
  show outsAt1 V c t.val t.isLt ((cfg1.win 2).xinj (grid1.coords t) j) = G V c (((cfg1.win 2).blk t).view.emb j)
  refine (key _).trans ?_
  show nearest _ _ _ = nearest _ _ (colOf (((cfg1.win 2).blk t).view.emb j))
  congr 1
  apply Fin.ext
  show 1024 * (t.val / 16) + (j 1).val = win1_2.index t (1 : Fin 2) * 1024 + 1 * (j 1).val
  rw [e5]; omega

/-- An index of the result row is in point `t`'s block iff each coordinate is in the block's range on its axis. -/
theorem mem_blk (t : Fin cfg1.N) (i : S1x16384.Idx) :
    i ∈ ((cfg1.win 2).blk t).view.set ↔ ∀ a : Fin 2, win1_2.index t a * S1x1024.size a ≤ (i a).val ∧ (i a).val < win1_2.index t a * S1x1024.size a + S1x1024.size a := by
  show i ∈ ((View.whole main_v2).slice (win1_2.rect t)).set ↔ _
  rw [View.set_slice_whole, Rect.mem_set_unit]
  exact Iff.rfl

/-- THE RESULT ROW after the region: the sixteen writing points' blocks tile it. -/
theorem final (c : Dev nD) : (dat1 V c).arrAt 2 cfg1.N = G V c :=
  (dat1 V c).arrAt_eq_of_cover 2 (G V c) (flushed_eq V c) fun i => by
    have hi0 : (i 0).val < 1 := idx2_lt0 i
    have hi1 : (i 1).val < 16384 := idx2_lt1 i
    let t : Fin cfg1.N := ⟨16 * ((i 1).val / 1024) + 15, by rw [N_eq]; omega⟩
    obtain ⟨-, -, -, -, e4, e5⟩ := idx_facts t
    have ht : t.val = 16 * ((i 1).val / 1024) + 15 := rfl
    refine ⟨t, (flush1_2 t).mpr (by rw [ht]; omega), ?_⟩
    rw [mem_blk]
    intro a
    match a with
    | ⟨0, _⟩ => show win1_2.index t (0 : Fin 2) * 1 ≤ (i 0).val ∧ (i 0).val < win1_2.index t (0 : Fin 2) * 1 + 1; rw [e4]; omega
    | ⟨1, _⟩ => show win1_2.index t (1 : Fin 2) * 1024 ≤ (i 1).val ∧ (i 1).val < win1_2.index t (1 : Fin 2) * 1024 + 1024; rw [e5, ht]; omega

end Cert.Chamfer.Reg1

end
-- ==== Proof.KernelValue.lean ====
/-
  The kernel program's result, as one function of the two clouds.

  After the first region its result row holds the least distances of the first cloud's rows to the second cloud;
  the host casts the row to a vector. The second region finds the two clouds as launched (nothing in between writes
  them) and leaves the least distances of the second cloud's rows to the first. The host then sums each vector from
  the printed zero and adds the two sums: the Chamfer sum `total`.
-/
import proofs.«154543_j30442728194567_1_alg».proof.Proof.KernelRun
import proofs.«154543_j30442728194567_1_alg».proof.Proof.Region0
import proofs.«154543_j30442728194567_1_alg».proof.Proof.Region1
import Idealize.ShloMosaic.Lib.StableHlo.Run
import Idealize.ShloMosaic.Lib.ValueIdxRank1
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem

namespace Cert.Chamfer.KernelValue

open Cert.KernelIdeal Cert.KernelIdeal.Gen Idealize.ShloMosaic.ValueIdx Cert.Chamfer

variable (m : (ℓ : Loc nD τ sig) → Buf (Elt Ideal) ℓ) (ρ : Dev nD → PrngReg)

/-- The two clouds as launched. -/
abbrev p1 (c : Dev nD) : Pts.Idx → EReal := m ((c : Thread nD τ).loc main_arg0)
abbrev p2 (c : Dev nD) : Pts.Idx → EReal := m ((c : Thread nD τ).loc main_arg1)

/-- A sum over the indices of a vector of 16384 entries is the sum over its coordinate. -/
theorem sum_vec (f : S16384.Idx → EReal) : ∑ j : S16384.Idx, f j = ∑ n : Fin 16384, f (ix1 n) :=
  (Equiv.sum_comp (idxEquiv1 (n := 16384)).symm f).symm

/-- A row `[1, 16384]` cast to a vector reads, at `n`, the row at `(0, n)`. -/
theorem row_cast (g : S1x16384.Idx → EReal) (n : Fin 16384) :
    shapeCast S16384 g shapeCasts_S1x16384_S16384 (ix1 n) = g (ix2 (0 : Fin 1) n) := by
  refine (shapeCast_dropUnit_apply ![16384] g _ (ix1 n)).trans (congrArg g ?_)
  funext a
  match a with
  | ⟨0, _⟩ => rfl
  | ⟨1, _⟩ => rfl

/-- The first region's result row. -/
theorem row0 (c : Dev nD) : W1 m ρ c (Proc.devRef .tc main_v0) = fun i => nearest (p1 m c) (p2 m c) (Reg0.colOf i) :=
  (W1_arr m ρ c 2).trans (Reg0.final (V0 m ρ) c)

/-- The second region's result row. -/
theorem row1 (c : Dev nD) : W3 m ρ c (Proc.devRef .tc main_v2) = fun i => nearest (p2 m c) (p1 m c) (Reg1.colOf i) := by
  refine ((W3_arr m ρ c 2).trans (Reg1.final (V2 m ρ) c)).trans ?_
  show (fun i => nearest (V2 m ρ c main_arg1) (V2 m ρ c main_arg0) (Reg1.colOf i)) = _
  rw [show V2 m ρ c main_arg1 = p2 m c from Launch.W2_main_arg1 m ρ c,
    show V2 m ρ c main_arg0 = p1 m c from Launch.W2_main_arg0 m ρ c]

/-- The first vector the host sums: the first row, cast. -/
theorem vec0 (c : Dev nD) : W3 m ρ c (Proc.devRef .tc main_v1)
    = shapeCast S16384 (fun i => nearest (p1 m c) (p2 m c) (Reg0.colOf i)) shapeCasts_S1x16384_S16384 := by
  rw [W3_of_ne m ρ c main_v1 (fun w => by fin_cases w <;> decide)]
  show StableHlo.after hostOps1 (W1 m ρ c) (Proc.devRef .tc main_v1) = _
  after_results
  rw [row0 m ρ c]
  rfl

/-- A host sum of a vector of 16384 entries from the printed zero. -/
theorem host_sum (y : S16384.Idx → EReal) (i : S_.Idx) :
    Host.reduceAdd (F := Ideal) y (constant S_ .f32 0x00000000#32) reducesTo_S16384_S_d0 h_S_ i
      = ZERO + ∑ n : Fin 16384, y (ix1 n) := by
  simp only [Host.reduceAdd, Ideal.hostReduceAdd_def]
  refine (Ideal.hostReduceAdd_total reducesTo_S16384_S_d0 (fun b => b.elim0) y _ i).trans ?_
  rw [sum_vec]
  rfl

/-- THE KERNEL PROGRAM'S VALUE: what the fold through @main leaves in the result buffer is the Chamfer sum of the
    least distances of each cloud to the other. -/
theorem result_eq (c : Dev nD) :
    W4 m ρ c (Proc.devRef .tc main_v6) = fun _ => total (nearest (p1 m c) (p2 m c)) (nearest (p2 m c) (p1 m c)) := by
  show StableHlo.after hostOps2 (W3 m ρ c) (Proc.devRef .tc main_v6) = _
  after_results
  rw [vec0 m ρ c, row1 m ρ c]
  funext i
  show Host.reduceAdd (F := Ideal) _ _ _ _ i + Host.reduceAdd (F := Ideal) _ _ _ _ i = _
  rw [host_sum, host_sum]
  unfold total
  refine congrArg₂ (· + ·) (congrArg (ZERO + ·) (Finset.sum_congr rfl fun n _ => ?_))
    (congrArg (ZERO + ·) (Finset.sum_congr rfl fun n _ => ?_))
  · exact row_cast _ n
  · show shapeCast S16384 (fun i => nearest (p2 m c) (p1 m c) (Reg1.colOf i)) shapeCasts_S1x16384_S16384 (ix1 n) = _
    exact row_cast _ n

end Cert.Chamfer.KernelValue

end
-- ==== Proof.RefValue.lean ====
/-
  The reference program's result is the Chamfer sum of the two vectors of least distances.

  Stage by stage: the reference forms, for row `n` of the first cloud and row `m` of the second, the number
      D[n, m] = sqrt (max ((s1[n] + s2[m]) − 2 · Σ_k x0[n, k] · x1[m, k]) 0),
  where s1[n] and s2[m] are the squared norms, each summed from a zero. That is the distance of row `m` of the
  second cloud to row `n` of the first through the expansion, and by the symmetry of the expansion also the
  distance of row `n` of the first to row `m` of the second. The least of D over `m` (from plus infinity) is
  therefore the least distance of row `n` of the first cloud to the second, the least over `n` the least distance
  of row `m` of the second cloud to the first; the result adds the two sums of these, each from the printed zero.
  Only the zero a squared norm is summed from is evaluated (it is absorbed by the sum); every other literal stays
  the word it is printed as.
-/
import proofs.«154543_j30442728194567_1_alg».proof.Proof.Gen.ReferenceIdeal.Read
import proofs.«154543_j30442728194567_1_alg».proof.Proof.Spec
import Idealize.ShloMosaic.Lib.ValueIdx
import Idealize.ShloMosaic.Lib.ValueIdxRank1
import Idealize.ShloMosaic.PureOps.Ideal.Laws
import Idealize.ShloMosaic.PureOps.Reduce

noncomputable section

open scoped BigOperators

namespace Cert.Chamfer.Ref

open Cert.ReferenceIdeal Cert.ReferenceIdeal.Gen Cert.ReferenceIdeal.Read Idealize.ShloMosaic
  Idealize.ShloMosaic.ValueIdx

/-- A cloud as the reference program holds it. -/
abbrev Arr : Type := (⟨S16384x3, .f32⟩ : BufTy).Contents (Elt Ideal)

/-! ## The index maps of the stages, in coordinates -/

theorem idx_s1 (n m : Fin 16384) (k : Fin 3) :
    idx_main_v1 (idx_main_v2 (idx_main_v7 (ix2 n m))) k = ix2 n k :=
  funext fun a => Fin.ext (by match a with | ⟨0, _⟩ => rfl | ⟨1, _⟩ => rfl)

theorem idx_s2 (n m : Fin 16384) (k : Fin 3) :
    idx_main_v4 (idx_main_v5 (idx_main_v6 (idx_main_v8 (ix2 n m)))) k = ix2 m k :=
  funext fun a => Fin.ext (by match a with | ⟨0, _⟩ => rfl | ⟨1, _⟩ => rfl)

theorem idx_l (n m : Fin 16384) (k : Fin 3) : lidx_main_v11 (ix2 n m) k = ix2 n k :=
  funext fun a => Fin.ext (by match a with | ⟨0, _⟩ => rfl | ⟨1, _⟩ => rfl)

theorem idx_r (n m : Fin 16384) (k : Fin 3) : idx_main_v10 (ridx_main_v11 (ix2 n m) k) = ix2 m k :=
  funext fun a => Fin.ext (by match a with | ⟨0, _⟩ => rfl | ⟨1, _⟩ => rfl)

/-! ## The matrix of distances -/

/-- Entry `(n, m)` of the reference's matrix is the distance of row `m` of the second cloud to row `n` of the first. -/
theorem D_apply (x0 x1 : Arr) (n m : Fin 16384) :
    val_main_v17 (F := Ideal) x0 x1 (ix2 n m) = edist x1 x0 m n := by
  simp only [val_main_v17_apply, val_main_v16_apply, val_main_v14_apply, val_main_v9_apply, val_main_v7_apply,
    val_main_v2_apply, val_main_v1_apply, val_main_v0_apply, val_main_cst_apply, val_main_v8_apply,
    val_main_v6_apply, val_main_v5_apply, val_main_v4_apply, val_main_v3_apply, val_main_cst_0_apply,
    val_main_v13_apply, val_main_v12_apply, val_main_cst_1_apply, val_main_v11_apply, val_main_v10_apply,
    val_main_v15_apply, val_main_cst_2_apply, idx_s1, idx_s2, idx_l, idx_r,
    Ideal.hostUnary_sqrt_def, Ideal.maximumf_def, Ideal.subf_def, Ideal.addf_def, Ideal.mulf_def, Ideal.ofBits_def,
    Ideal.ofBits_zero_f32, zero_add]
  simp only [edist, sq, dot, Ideal.ofBits_zero_f32]

/-! ## The two min-reductions -/

theorem reduces_d1 : S16384x16384.Reduces [1] S16384 := by decide
theorem reduces_d0 : S16384x16384.Reduces [0] S16384 := by decide

/-- Row `n` of the matrix, its column inserted. -/
theorem lift_d1 (n m : Fin 16384) : reduces_d1.lift (ix1 n) m = ix2 n m :=
  funext fun a => Fin.ext (by match a with | ⟨0, _⟩ => rfl | ⟨1, _⟩ => rfl)

/-- Column `m` of the matrix, its row inserted. -/
theorem lift_d0 (m n : Fin 16384) : reduces_d0.lift (ix1 m) n = ix2 n m :=
  funext fun a => Fin.ext (by match a with | ⟨0, _⟩ => rfl | ⟨1, _⟩ => rfl)

/-- The least of row `n` is the least distance of row `n` of the first cloud to the second. -/
theorem min1_apply (x0 x1 : Arr) (n : Fin 16384) :
    val_main_v18 (F := Ideal) x0 x1 (ix1 n) = nearest x0 x1 n := by
  unfold val_main_v18
  rw [Host.reduce_eq_fold_single FloatOps.minimumf _ _ reducesTo_S16384x16384_S16384_d1 reduces_d1 h_S_ (ix1 n)]
  show (Finset.univ : Finset (Fin 16384)).fold min INF
      (fun m => val_main_v17 (F := Ideal) x0 x1 (reduces_d1.lift (ix1 n) m)) = _
  unfold nearest
  have e : ∀ m : Fin 16384,
      val_main_v17 (F := Ideal) x0 x1 (reduces_d1.lift (ix1 n) m) = edist x0 x1 n m := fun m => by
    rw [lift_d1, D_apply, edist_symm]
  exact Finset.fold_congr fun m _ => e m

/-- The least of column `m` is the least distance of row `m` of the second cloud to the first. -/
theorem min2_apply (x0 x1 : Arr) (m : Fin 16384) :
    val_main_v19 (F := Ideal) x0 x1 (ix1 m) = nearest x1 x0 m := by
  unfold val_main_v19
  rw [Host.reduce_eq_fold_single FloatOps.minimumf _ _ reducesTo_S16384x16384_S16384_d0 reduces_d0 h_S_ (ix1 m)]
  show (Finset.univ : Finset (Fin 16384)).fold min INF
      (fun n => val_main_v17 (F := Ideal) x0 x1 (reduces_d0.lift (ix1 m) n)) = _
  unfold nearest
  have e : ∀ n : Fin 16384,
      val_main_v17 (F := Ideal) x0 x1 (reduces_d0.lift (ix1 m) n) = edist x1 x0 m n := fun n => by
    rw [lift_d0, D_apply]
  exact Finset.fold_congr fun n _ => e n

/-! ## The two sums and the result -/

/-- A sum over the indices of a vector of 16384 entries is the sum over its coordinate. -/
theorem sum_vec (f : S16384.Idx → EReal) : ∑ j : S16384.Idx, f j = ∑ n : Fin 16384, f (ix1 n) :=
  (Equiv.sum_comp (idxEquiv1 (n := 16384)).symm f).symm

/-- THE REFERENCE'S VALUE: the Chamfer sum of the least distances of each cloud to the other. -/
theorem result_eq (x0 x1 : (⟨Cert.ReferenceIdeal.S16384x3, .f32⟩ : BufTy).Contents (Elt Ideal)) :
    Cert.ReferenceIdeal.Read.val_main_v22 (F := Ideal) x0 x1
      = fun _ => Cert.Chamfer.total (Cert.Chamfer.nearest x0 x1) (Cert.Chamfer.nearest x1 x0) := by
  funext i
  rw [val_main_v22_apply, val_main_v20_apply, val_main_v21_apply, sum_vec, sum_vec]
  simp only [min1_apply, min2_apply]
  rfl

end Cert.Chamfer.Ref

end
-- ==== Proof.lean ====
/-
  The certificate of the Chamfer-distance kernel against its reference.

  Both programs take two clouds of 16384 points in three coordinates and return one number: the sum, over the rows
  of the first cloud, of the least distance to a row of the second, plus the same sum with the clouds exchanged,
  every distance taken through the expansion sqrt (max ((‖b‖² + ‖a‖²) − 2 · ⟨b, a⟩) 0). The reference forms the
  whole 16384 × 16384 matrix of distances on the host and takes its row minima and its column minima. The kernel
  program runs one Pallas region per direction — a 16 × 16 grid of (anchor band, other band) pairs whose body folds
  each band's least distances into a running minimum kept in the output's staging row — and sums the two result rows
  on the host.

  Over the extended reals the two are one function of the inputs: the kernel's band-by-band running minimum is the
  minimum over all rows (an identity of folds of `min`: Spec.lean), its distance entry is the reference's with the
  two summands and the two factors of each product exchanged (`edist_symm`), and the three literals are the same
  words on both sides. No step uses that the inputs are finite, so the precondition is never opened. The frames of
  the kernel programs are the generated ones; the reference's frame is its generated run with the result dropped;
  the idealization rewrote nothing, so `preserves` is `True`.
-/
import proofs.«154543_j30442728194567_1_alg».proof.Defs
import proofs.«154543_j30442728194567_1_alg».proof.Proof.Gen.Kernel
import proofs.«154543_j30442728194567_1_alg».proof.Proof.Gen.Kernel.Skeleton
import proofs.«154543_j30442728194567_1_alg».proof.Proof.Gen.Kernel.Launch
import proofs.«154543_j30442728194567_1_alg».proof.Proof.Gen.Kernel.Points
import proofs.«154543_j30442728194567_1_alg».proof.Proof.Gen.Kernel.Frame
import proofs.«154543_j30442728194567_1_alg».proof.Proof.Gen.KernelIdeal
import proofs.«154543_j30442728194567_1_alg».proof.Proof.Gen.KernelIdeal.Skeleton
import proofs.«154543_j30442728194567_1_alg».proof.Proof.Gen.KernelIdeal.Launch
import proofs.«154543_j30442728194567_1_alg».proof.Proof.Gen.KernelIdeal.Points
import proofs.«154543_j30442728194567_1_alg».proof.Proof.Gen.KernelIdeal.Frame
import proofs.«154543_j30442728194567_1_alg».proof.Proof.Gen.ReferenceIdeal
import proofs.«154543_j30442728194567_1_alg».proof.Proof.Gen.Pre_finite_inputs
import proofs.«154543_j30442728194567_1_alg».proof.Proof.Gen.ReferenceIdeal.Run
import proofs.«154543_j30442728194567_1_alg».proof.Proof.Gen.ReferenceIdeal.Read
import proofs.«154543_j30442728194567_1_alg».proof.Proof.KernelRun
import proofs.«154543_j30442728194567_1_alg».proof.Proof.KernelValue
import proofs.«154543_j30442728194567_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- At the extended reals the kernel program's result buffer ends at the Chamfer sum of the two clouds' least
    distances (the region accumulations and the host tail), and so does the reference's (its run, read stage by
    stage), of arguments that agree. -/
theorem algebraic : Cert.algebraic_KernelIdeal_ReferenceIdeal := by
  intro m ρ m' ρ' _ hagree
  refine ⟨fun c => fun _ => Cert.Chamfer.total
      (Cert.Chamfer.nearest (Cert.Chamfer.KernelValue.p1 m c) (Cert.Chamfer.KernelValue.p2 m c))
      (Cert.Chamfer.nearest (Cert.Chamfer.KernelValue.p2 m c) (Cert.Chamfer.KernelValue.p1 m c)), ?_, ?_⟩
  · exact (θ_run Cert.KernelIdeal.defs _ _).mono
      (fun r h c => ⟨(h c).1.trans (Cert.Chamfer.KernelValue.result_eq m ρ c), (h c).2.1, (h c).2.2⟩)
      (Cert.Chamfer.Launch.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.Chamfer.Ref.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
